-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩
abbrev S4096x128 : Shape := ⟨2, ![4096, 128]⟩
abbrev S128x4096 : Shape := ⟨2, ![128, 4096]⟩
abbrev S1024x512 : Shape := ⟨2, ![1024, 512]⟩
abbrev S512x1024 : Shape := ⟨2, ![512, 1024]⟩
abbrev S512x128 : Shape := ⟨2, ![512, 128]⟩
abbrev S128x1024 : Shape := ⟨2, ![128, 1024]⟩
abbrev S1024x1024 : Shape := ⟨2, ![1024, 1024]⟩
abbrev S1024x128 : Shape := ⟨2, ![1024, 128]⟩

abbrev nBuf : Space → Nat
  | .hbm => 12
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S_, .i32⟩
  | .hbm, ⟨9, _⟩ => ⟨S_, .f32⟩
  | .hbm, ⟨10, _⟩ => ⟨S128x4096, .f32⟩
  | .hbm, ⟨11, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S128x1024, .f32⟩
  | .local _ .vmem, ⟨7, _⟩ => ⟨S128x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S4096x16_S4096x128_000_01120 : S4096x16.Pads (![0, 0] : Fin 2 → Nat) ![0, 112] ![0, 0] S4096x128
  h_S_ : 0 < S_.numel
  pads_S16x4096_S128x4096_01120_000 : S16x4096.Pads (![0, 0] : Fin 2 → Nat) ![112, 0] ![0, 0] S128x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  dot_S1024x512_S512x1024_S1024x1024_1_0_0_1_n_n_wf : DotDims.WF S1024x512 S512x1024 S1024x1024 [1] [0] [0] [1] [] []
  dot_S1024x512_S512x128_S1024x128_1_0_0_1_n_n_wf : DotDims.WF S1024x512 S512x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .f32 = 32 ∨ (Rect.block (s := S128x4096) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x16 : Shape := ⟨2, ![8192, 16]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S8192x16, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.Pieces.lean ====
/- What each control case of the LoRA linear kernel leaves in its two carried accumulators and in the output
   block, as the kernel's payloads applied to the case's loads: seven equations, one per piece the runs found,
   generic in the float model. -/
import proofs.«145106_j43516608643827_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer rectangle, however they are spelt. -/
theorem hz : (![0, 0] : Fin 2 → Nat) = fun _ => 0 := funext fun a => by fin_cases a <;> rfl

/-- CASE B, the accumulator: the run's one covering store leaves its payload, whose loads read the whole
    staging buffers of the two operand blocks and the accumulator the point before left. -/
theorem acc_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (hc0 : ¬cond0_0 i) (hc1 : ¬cond0_1 i)
    (x0 : Vec F S1024x512 .f32) (x1 : Vec F S512x1024 .f32) (x2 : Vec F S512x128 .f32) (x3 : Vec F S128x1024 .f32) (s0 : Vec F S1024x1024 .f32) (s1 : Vec F S1024x128 .f32) :
    sout0_B_0 c i arg3 harg3 arg4 harg4 arg5 harg5 arg6 harg6 arg7 harg7 arg8 harg8 arg9 harg9 hc0 hc1 x0 x1 x2 x3 s0 s1 = k0_pay4 x0 x1 s0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 s0 s1)]
  unfold kernelRun0_B
  dsimp only
  sl_unfold_words
  rw [View.canon_unit_zero hz]
  simp only [View.readAt_eq_ld, harg3.read_unread, harg4.read_unread, harg8.read_unread,
    View.ld_unit_zero (S := S1024x512) hz, View.ld_unit_zero (S := S512x1024) hz,
    View.ld_unit_zero (S := S1024x1024) hz]

/-- CASE B, the low-rank accumulator: likewise, over the down-projection block. -/
theorem lora_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (hc0 : ¬cond0_0 i) (hc1 : ¬cond0_1 i)
    (x0 : Vec F S1024x512 .f32) (x1 : Vec F S512x1024 .f32) (x2 : Vec F S512x128 .f32) (x3 : Vec F S128x1024 .f32) (s0 : Vec F S1024x1024 .f32) (s1 : Vec F S1024x128 .f32) :
    sout0_B_1 c i arg3 harg3 arg4 harg4 arg5 harg5 arg6 harg6 arg7 harg7 arg8 harg8 arg9 harg9 hc0 hc1 x0 x1 x2 x3 s0 s1 = k0_pay5 x0 x2 s1 := by
  unfold sout0_B_1
  rw [View.read_writes_eq_canon _ _ _ (scover0_B_1 c i arg3 harg3 arg4 harg4 arg5 harg5 arg6 harg6 arg7 harg7 arg8 harg8 arg9 harg9 hc0 hc1 x0 x1 x2 x3 s0 s1)]
  unfold kernelRun0_B
  dsimp only
  sl_unfold_words
  rw [View.canon_unit_zero hz]
  simp only [View.readAt_eq_ld, harg3.read_unread, harg5.read_unread, harg9.read_unread,
    View.ld_unit_zero (S := S1024x512) hz, View.ld_unit_zero (S := S512x128) hz,
    View.ld_unit_zero (S := S1024x128) hz]

/-- CASE C, the accumulator: the same update as in case B (the final store does not touch the scratch). -/
theorem acc_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (hc0 : ¬cond0_0 i) (hc1 : cond0_1 i)
    (x0 : Vec F S1024x512 .f32) (x1 : Vec F S512x1024 .f32) (x2 : Vec F S512x128 .f32) (x3 : Vec F S128x1024 .f32) (s0 : Vec F S1024x1024 .f32) (s1 : Vec F S1024x128 .f32) :
    sout0_C_0 c i arg3 harg3 arg4 harg4 arg5 harg5 arg6 harg6 arg7 harg7 arg8 harg8 arg9 harg9 hc0 hc1 x0 x1 x2 x3 s0 s1 = k0_pay4 x0 x1 s0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 s0 s1)]
  unfold kernelRun0_C
  dsimp only
  sl_unfold_words
  rw [View.canon_unit_zero hz]
  simp only [View.readAt_eq_ld, harg3.read_unread, harg4.read_unread, harg8.read_unread,
    View.ld_unit_zero (S := S1024x512) hz, View.ld_unit_zero (S := S512x1024) hz,
    View.ld_unit_zero (S := S1024x1024) hz]

/-- CASE C, the low-rank accumulator: the same update as in case B. -/
theorem lora_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (hc0 : ¬cond0_0 i) (hc1 : cond0_1 i)
    (x0 : Vec F S1024x512 .f32) (x1 : Vec F S512x1024 .f32) (x2 : Vec F S512x128 .f32) (x3 : Vec F S128x1024 .f32) (s0 : Vec F S1024x1024 .f32) (s1 : Vec F S1024x128 .f32) :
    sout0_C_1 c i arg3 harg3 arg4 harg4 arg5 harg5 arg6 harg6 arg7 harg7 arg8 harg8 arg9 harg9 hc0 hc1 x0 x1 x2 x3 s0 s1 = k0_pay5 x0 x2 s1 := by
  unfold sout0_C_1
  rw [View.read_writes_eq_canon _ _ _ (scover0_C_1 c i arg3 harg3 arg4 harg4 arg5 harg5 arg6 harg6 arg7 harg7 arg8 harg8 arg9 harg9 hc0 hc1 x0 x1 x2 x3 s0 s1)]
  unfold kernelRun0_C
  dsimp only
  sl_unfold_words
  rw [View.canon_unit_zero hz]
  simp only [View.readAt_eq_ld, harg3.read_unread, harg5.read_unread, harg9.read_unread,
    View.ld_unit_zero (S := S1024x512) hz, View.ld_unit_zero (S := S512x128) hz,
    View.ld_unit_zero (S := S1024x128) hz]

/-- CASE A, the accumulator: the reset stores the zero block, the update loads it back (a load of what one
    covering store left) and its store, the later of the two pieces, covers the reset's. -/
theorem acc_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (hc0 : cond0_0 i) (hc1 : ¬cond0_1 i)
    (x0 : Vec F S1024x512 .f32) (x1 : Vec F S512x1024 .f32) (x2 : Vec F S512x128 .f32) (x3 : Vec F S128x1024 .f32) :
    sout0_A_0 c i arg3 harg3 arg4 harg4 arg5 harg5 arg6 harg6 arg7 harg7 arg8 harg8 arg9 harg9 hc0 hc1 x0 x1 x2 x3 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x512) hz, View.ld_unit_zero (S := S512x1024) hz]

/-- CASE A, the low-rank accumulator: likewise, over the zero block of its own shape. -/
theorem lora_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (hc0 : cond0_0 i) (hc1 : ¬cond0_1 i)
    (x0 : Vec F S1024x512 .f32) (x1 : Vec F S512x1024 .f32) (x2 : Vec F S512x128 .f32) (x3 : Vec F S128x1024 .f32) :
    sout0_A_1 c i arg3 harg3 arg4 harg4 arg5 harg5 arg6 harg6 arg7 harg7 arg8 harg8 arg9 harg9 hc0 hc1 x0 x1 x2 x3 = k0_pay5 x0 x2 k0_pay2 := by
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x128) hz, View.readCov_unit_zero (S := S1024x128) _ hz]
  simp only [View.readAt_eq_ld, harg3.read_unread, harg5.read_unread,
    View.ld_unit_zero (S := S1024x512) hz, View.ld_unit_zero (S := S512x128) hz]

/-- CASE C, the output block: the final store's payload loads the up-projection block and loads back what the
    two updates of this same point stored (each a load of what one covering store left), so it is the
    accumulator's new value plus the product of the low-rank accumulator's new value with the up-projection. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x128 .f32) (harg5 : arg5.IsWhole) (arg6 : Memref sig .tc .vmem S128x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x128 .f32) (harg9 : arg9.IsWhole) (hc0 : ¬cond0_0 i) (hc1 : cond0_1 i)
    (x0 : Vec F S1024x512 .f32) (x1 : Vec F S512x1024 .f32) (x2 : Vec F S512x128 .f32) (x3 : Vec F S128x1024 .f32) (s0 : Vec F S1024x1024 .f32) (s1 : Vec F S1024x128 .f32) :
    out0_C_4 c i arg3 harg3 arg4 harg4 arg5 harg5 arg6 harg6 arg7 harg7 arg8 harg8 arg9 harg9 hc0 hc1 x0 x1 x2 x3 s0 s1 = k0_pay6 x3 (k0_pay5 x0 x2 s1) (k0_pay4 x0 x1 s0) := by
  unfold out0_C_4
  rw [View.read_writes_eq_canon _ _ _ (cover0_C_4 c i arg3 harg3 arg4 harg4 arg5 harg5 arg6 harg6 arg7 harg7 arg8 harg8 arg9 harg9 hc0 hc1 x0 x1 x2 x3 s0 s1)]
  unfold kernelRun0_C
  dsimp only
  sl_unfold_words
  rw [View.canon_unit_zero hz]
  simp only [View.readAt_eq_ld, harg3.read_unread, harg4.read_unread, harg5.read_unread, harg6.read_unread,
    harg8.read_unread, harg9.read_unread,
    View.readCov_unit_zero (S := S1024x128) _ hz, View.readCov_unit_zero (S := S1024x1024) _ hz,
    View.ld_unit_zero (S := S1024x512) hz, View.ld_unit_zero (S := S512x1024) hz,
    View.ld_unit_zero (S := S512x128) hz, View.ld_unit_zero (S := S128x1024) hz,
    View.ld_unit_zero (S := S1024x128) hz, View.ld_unit_zero (S := S1024x1024) hz]

end Cert.KernelIdeal.Pieces

end
-- ==== Proof.Payloads.lean ====
/-
  The pure values the LoRA linear kernel stores, each read at ONE element over the extended reals.

  The body keeps two scratch blocks, the base accumulator `acc` [1024, 1024] and the low-rank accumulator `lo`
  [1024, 128]. Its stores write five pure values of what it loaded before:
    * the two zero blocks that reset `acc` and `lo` on the first step of the contraction (`pay1_apply`, `pay2_apply`);
    * `acc + x · w` and `lo + x · a`, the two partial products of one [1024, 512] block of `x` added on
      (`pay4_apply`, `pay5_apply`);
    * `acc + lo · b`, the low-rank correction added to the base product on the last step (`pay6_apply`).
  Over the extended reals the narrowing to bf16 in front of each product is the identity, the zero word the products
  accumulate into is the real `0`, and a product read at the output element (p, q) is the sum over its one contracted
  coordinate `k` of the left operand at (p, k) times the right operand at (k, q). So every element is the closed
  form on the right-hand sides below, with explicit coordinates on both sides.

  Each product has its own record of dimension numbers (contract axis 1 of the left operand with axis 0 of the right,
  no batch axis). For each record four facts say which coordinate of the output index or of the contraction index an
  operand index takes on each of its two axes; with them the contraction index, a rank-1 multi-index, is exchanged for
  its one coordinate and the two operand indices are `(p, k)` and `(k, q)`.
-/
import proofs.«145106_j43516608643827_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payloads

open Idealize.ShloMosaic Idealize.ShloMosaic.ValueIdx Cert.KernelIdeal Cert.KernelIdeal.Gen

/-! ## The zero blocks -/

/-- The block that resets the base accumulator is zero at every element. -/
theorem pay1_apply (p : Fin 1024) (q : Fin 1024) : k0_pay1 (F := Ideal) (ix2 p q) = 0 := by
  unfold k0_pay1
  show shapeCast S1024x1024 (broadcast S1024x1024 (Scalar.ofBits (F := Ideal) .f32 0x00000000#32)) shapeCasts_S1024x1024_S1024x1024 (ix2 p q) = 0
  rw [shapeCast_self]
  exact Ideal.ofBits_zero_f32

/-- The block that resets the low-rank accumulator is zero at every element. -/
theorem pay2_apply (p : Fin 1024) (r : Fin 128) : k0_pay2 (F := Ideal) (ix2 p r) = 0 := by
  unfold k0_pay2
  show shapeCast S1024x128 (broadcast S1024x128 (Scalar.ofBits (F := Ideal) .f32 0x00000000#32)) shapeCasts_S1024x128_S1024x128 (ix2 p r) = 0
  rw [shapeCast_self]
  exact Ideal.ofBits_zero_f32

/-! ## The base product: [1024, 512] times [512, 1024] -/

theorem lhs_xw_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_xw_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_xw_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_xw_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The base product into the zero block, at the element (p, q): the sum over the contracted coordinate. -/
theorem matmul_xw_apply (a : FVec Ideal S1024x512 .bf16) (b : FVec Ideal S512x1024 .bf16) (p : Fin 1024) (q : Fin 1024) :
    FloatOps.matmul dot_S1024x512_S512x1024_S1024x1024_1_0_0_1_n_n none a b (constant (F := Ideal) S1024x1024 .f32 0x00000000#32) (ix2 p q)
      = ∑ k : Fin 512, a (ix2 p k) * b (ix2 k q) := by
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_xw_0 _ _
    | ⟨1, _⟩ => exact (lhs_xw_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_xw_0 _ _).trans hk
    | ⟨1, _⟩ => exact rhs_xw_1 _ _)
  rw [el, er]

/-! ## The down projection: [1024, 512] times [512, 128] -/

theorem lhs_xa_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhs_xa_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhs_xa_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhs_xa_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The down projection into the zero block, at the element (p, r): the sum over the contracted coordinate. -/
theorem matmul_xa_apply (a : FVec Ideal S1024x512 .bf16) (b : FVec Ideal S512x128 .bf16) (p : Fin 1024) (q : Fin 128) :
    FloatOps.matmul dot_S1024x512_S512x128_S1024x128_1_0_0_1_n_n none a b (constant (F := Ideal) S1024x128 .f32 0x00000000#32) (ix2 p q)
      = ∑ k : Fin 512, a (ix2 p k) * b (ix2 k q) := by
  rw [Ideal.matmul_constant_zero_apply, ← Equiv.sum_comp (ValueIdx.contrEquiv1 dot_S1024x512_S512x128_S1024x128_1_0_0_1_n_n 512 rfl rfl).symm]
  refine Finset.sum_congr rfl fun k _ => ?_
  have hk := ValueIdx.contrEquiv1_symm_val dot_S1024x512_S512x128_S1024x128_1_0_0_1_n_n 512 rfl rfl k
  have el : dot_S1024x512_S512x128_S1024x128_1_0_0_1_n_n.lhsIdx (ix2 p q) ((ValueIdx.contrEquiv1 dot_S1024x512_S512x128_S1024x128_1_0_0_1_n_n 512 rfl rfl).symm k) = ix2 p k := funext fun a => Fin.ext (by
    match a with
    | ⟨0, _⟩ => exact lhs_xa_0 _ _
    | ⟨1, _⟩ => exact (lhs_xa_1 _ _).trans hk)
  have er : dot_S1024x512_S512x128_S1024x128_1_0_0_1_n_n.rhsIdx (ix2 p q) ((ValueIdx.contrEquiv1 dot_S1024x512_S512x128_S1024x128_1_0_0_1_n_n 512 rfl rfl).symm k) = ix2 k q := funext fun a => Fin.ext (by
    match a with
    | ⟨0, _⟩ => exact (rhs_xa_0 _ _).trans hk
    | ⟨1, _⟩ => exact rhs_xa_1 _ _)
  rw [el, er]

/-! ## The up projection: [1024, 128] times [128, 1024] -/

theorem lhs_lb_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_lb_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_lb_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_lb_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The up projection into the zero block, at the element (p, q): the sum over the low-rank coordinate. -/
theorem matmul_lb_apply (a : FVec Ideal S1024x128 .bf16) (b : FVec Ideal S128x1024 .bf16) (p : Fin 1024) (q : Fin 1024) :
    FloatOps.matmul dot_S1024x128_S128x1024_S1024x1024_1_0_0_1_n_n none a b (constant (F := Ideal) S1024x1024 .f32 0x00000000#32) (ix2 p q)
      = ∑ k : Fin 128, a (ix2 p k) * b (ix2 k q) := by
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs_lb_0 _ _
    | ⟨1, _⟩ => exact (lhs_lb_1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs_lb_0 _ _).trans hk
    | ⟨1, _⟩ => exact rhs_lb_1 _ _)
  rw [el, er]

/-! ## The three accumulating values -/

/-- One step of the base accumulator: the element before plus this block's partial product. -/
theorem pay4_apply (x0 : Vec Ideal S1024x512 .f32) (x1 : Vec Ideal S512x1024 .f32) (acc : Vec Ideal S1024x1024 .f32) (p : Fin 1024) (q : Fin 1024) :
    k0_pay4 (F := Ideal) x0 x1 acc (ix2 p q) = acc (ix2 p q) + ∑ k : Fin 512, x0 (ix2 p k) * x1 (ix2 k q) := by
  unfold k0_pay4 k0_pay3
  show shapeCast S1024x1024 (addf acc (matmul dot_S1024x512_S512x1024_S1024x1024_1_0_0_1_n_n none (truncf .bf16 x0 bitsLt_bf16_f32) (truncf .bf16 x1 bitsLt_bf16_f32) (constant (F := Ideal) S1024x1024 .f32 0x00000000#32))) shapeCasts_S1024x1024_S1024x1024 (ix2 p q) = _
  rw [shapeCast_self]
  exact congrArg (acc (ix2 p q) + ·) (matmul_xw_apply _ _ p q)

/-- One step of the low-rank accumulator: the element before plus this block's partial down projection. -/
theorem pay5_apply (x0 : Vec Ideal S1024x512 .f32) (x2 : Vec Ideal S512x128 .f32) (lo : Vec Ideal S1024x128 .f32) (p : Fin 1024) (r : Fin 128) :
    k0_pay5 (F := Ideal) x0 x2 lo (ix2 p r) = lo (ix2 p r) + ∑ k : Fin 512, x0 (ix2 p k) * x2 (ix2 k r) := by
  unfold k0_pay5 k0_pay3
  show shapeCast S1024x128 (addf lo (matmul dot_S1024x512_S512x128_S1024x128_1_0_0_1_n_n none (truncf .bf16 x0 bitsLt_bf16_f32) (truncf .bf16 (shapeCast S512x128 x2 shapeCasts_S512x128_S512x128) bitsLt_bf16_f32) (constant (F := Ideal) S1024x128 .f32 0x00000000#32))) shapeCasts_S1024x128_S1024x128 (ix2 p r) = _
  rw [shapeCast_self, shapeCast_self]
  exact congrArg (lo (ix2 p r) + ·) (matmul_xa_apply _ _ p r)

/-- The last step: the base accumulator's element plus the up projection of the low-rank accumulator. -/
theorem pay6_apply (x3 : Vec Ideal S128x1024 .f32) (lo : Vec Ideal S1024x128 .f32) (acc : Vec Ideal S1024x1024 .f32) (p : Fin 1024) (q : Fin 1024) :
    k0_pay6 (F := Ideal) x3 lo acc (ix2 p q) = acc (ix2 p q) + ∑ r : Fin 128, lo (ix2 p r) * x3 (ix2 r q) := by
  unfold k0_pay6
  show addf acc (matmul dot_S1024x128_S128x1024_S1024x1024_1_0_0_1_n_n none (truncf .bf16 lo bitsLt_bf16_f32) (truncf .bf16 (shapeCast S128x1024 x3 shapeCasts_S128x1024_S128x1024) bitsLt_bf16_f32) (constant (F := Ideal) S1024x1024 .f32 0x00000000#32)) (ix2 p q) = _
  rw [shapeCast_self]
  exact congrArg (acc (ix2 p q) + ·) (matmul_lb_apply _ _ p q)

end Cert.KernelIdeal.Payloads

end
-- ==== Proof.SumBlocks.lean ====
/-
  Two facts about finite sums in a commutative additive monoid, used to compare a contraction accumulated
  block by block, and padded with zero terms, against the plain contraction.

  * `sum_blocks`: a sum over `n * K` consecutive naturals is the sum, over the `n` blocks of length `K`,
    of each block's own sum.
  * `sum_pad`: a sum over `R + P` consecutive naturals whose terms vanish from `R` on is the sum of the
    first `R` terms.
-/
import Mathlib.Algebra.BigOperators.Fin

namespace Cert.SumBlocks

open Finset

variable {β : Type*} [AddCommMonoid β]

/-- `n` blocks of `K` consecutive terms, taken in order, are the first `n * K` terms. -/
theorem sum_blocks (K : ℕ) (f : ℕ → β) :
    ∀ n : ℕ, ∑ s ∈ range n, ∑ k ∈ range K, f (K * s + k) = ∑ k ∈ range (n * K), f k
  | 0 => by simp
  | n + 1 => by
    rw [sum_range_succ, sum_blocks K f n, Nat.succ_mul, sum_range_add, Nat.mul_comm K n]

/-- Terms that vanish from `R` on contribute nothing. -/
theorem sum_pad (R P : ℕ) (g : ℕ → β) (hz : ∀ r, R ≤ r → g r = 0) :
    ∑ r ∈ range (R + P), g r = ∑ r ∈ range R, g r := by
  rw [sum_range_add, sum_eq_zero (fun r _ => hz (R + r) (Nat.le_add_right _ _)), add_zero]

/-- The blocked sum with each block indexed by `Fin K` and the whole by `Fin (n * K)`. -/
theorem sum_blocks_fin (n K N : ℕ) (hN : n * K = N) (f : ℕ → β) :
    ∑ s ∈ range n, ∑ k : Fin K, f (K * s + k.val) = ∑ k : Fin N, f k.val := by
  subst hN
  rw [Fin.sum_univ_eq_sum_range (fun k => f k) (n * K), ← sum_blocks K f n]
  exact sum_congr rfl fun s _ => Fin.sum_univ_eq_sum_range (fun k => f (K * s + k)) K

/-- The padded sum indexed by `Fin (R + P)` against the unpadded one indexed by `Fin R`. -/
theorem sum_pad_fin (R P N : ℕ) (hN : R + P = N) (g : ℕ → β) (hz : ∀ r, R ≤ r → g r = 0) :
    ∑ r : Fin N, g r.val = ∑ r : Fin R, g r.val := by
  subst hN
  rw [Fin.sum_univ_eq_sum_range g (R + P), Fin.sum_univ_eq_sum_range g R, sum_pad R P g hz]

end Cert.SumBlocks
-- ==== Proof.Spec.lean ====
/-
  The value both programs compute, as one function of the four arrays it depends on.

  With `x : [8192, 4096]`, `W : [4096, 4096]`, `A : [4096, 16]`, `B : [16, 4096]`, entry `(i₀, i₁)` of the
  result is
      ∑ₖ x[i₀,k]·W[k,i₁]  +  ∑ᵣ (∑ₖ x[i₀,k]·A[k,r])·B[r,i₁]        (k < 4096, r < 16)
  (`loraLinear`). The kernel reaches the same number differently (`blocked`): each contraction over `k` is
  accumulated from zero in 8 blocks of 512, and the rank axis `r` runs to 128 over arrays `A'`, `B'` that agree
  with `A`, `B` below 16 and where `B'` is zero from row 16 on. Over the extended reals the two agree
  (`blocked_eq`): regrouping a finite sum needs only commutativity and associativity of `+`, and a term
  `u · 0` is `0` whatever `u` is, so no finiteness is used.
-/
import Idealize.ShloMosaic.PureOps.Ideal
import Idealize.ShloMosaic.Lib.ValueIdx
import proofs.«145106_j43516608643827_1_alg».proof.Proof.SumBlocks

noncomputable section

namespace Cert.Lora

open Idealize.ShloMosaic Idealize.ShloMosaic.ValueIdx Finset

/-- Entry `(a, b)` of a rank-2 array by natural coordinates; `0` outside the array. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- An array read at an index is `at2` at that index's coordinates. -/
theorem at2_of {n0 n1 : ℕ} (X : (⟨2, ![n0, n1]⟩ : Shape).Idx → EReal) (j : (⟨2, ![n0, n1]⟩ : Shape).Idx) (a b : ℕ)
    (ha : (j 0).val = a) (hb : (j 1).val = b) : at2 X a b = X j := by
  subst ha hb
  unfold at2
  rw [dif_pos ⟨(j 0).isLt, (j 1).isLt⟩]
  exact congrArg X (eq_ix2 j).symm

/-- `at2` at coordinates given as `Fin`s of the array's own extents. -/
theorem at2_ix2 {n0 n1 : ℕ} (X : (⟨2, ![n0, n1]⟩ : Shape).Idx → EReal) (a : Fin n0) (b : Fin n1) :
    at2 X a.val b.val = X (ix2 a b) := at2_of X (ix2 a b) _ _ rfl rfl

/-- `x·W + (x·A)·B`, entry by entry. -/
def loraLinear (x : (⟨2, ![8192, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal) :
    (⟨2, ![8192, 4096]⟩ : Shape).Idx → EReal := fun i =>
  (∑ k : Fin 4096, at2 x (i 0).val k.val * at2 W k.val (i 1).val)
    + ∑ r : Fin 16, (∑ k : Fin 4096, at2 x (i 0).val k.val * at2 A k.val r.val) * at2 B r.val (i 1).val

/-- The same entry as the kernel accumulates it: every contraction from zero in 8 blocks of 512, the rank axis
    over 128 columns of `A'` and rows of `B'`. -/
def blocked (x : (⟨2, ![8192, 4096]⟩ : Shape).Idx → EReal) (W : (⟨2, ![4096, 4096]⟩ : Shape).Idx → EReal)
    (A' : (⟨2, ![4096, 128]⟩ : Shape).Idx → EReal) (B' : (⟨2, ![128, 4096]⟩ : Shape).Idx → EReal) :
    (⟨2, ![8192, 4096]⟩ : Shape).Idx → EReal := fun i =>
  (0 + ∑ s ∈ range 8, ∑ k : Fin 512, at2 x (i 0).val (512 * s + k.val) * at2 W (512 * s + k.val) (i 1).val)
    + ∑ r : Fin 128, (0 + ∑ s ∈ range 8, ∑ k : Fin 512, at2 x (i 0).val (512 * s + k.val) * at2 A' (512 * s + k.val) r.val)
        * at2 B' r.val (i 1).val

/-- The blocked, padded form is the plain one, when `A'` extends `A` and `B'` extends `B` by zero rows. -/
theorem blocked_eq (x : (⟨2, ![8192, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal)
    (A' : (⟨2, ![4096, 128]⟩ : Shape).Idx → EReal) (B' : (⟨2, ![128, 4096]⟩ : Shape).Idx → EReal)
    (hA : ∀ k r : ℕ, r < 16 → at2 A' k r = at2 A k r)
    (hB : ∀ r q : ℕ, at2 B' r q = if r < 16 then at2 B r q else 0) :
    blocked x W A' B' = loraLinear x W A B := by
  funext i
  unfold blocked loraLinear
  rw [zero_add,
    SumBlocks.sum_blocks_fin 8 512 4096 rfl (fun k => at2 x (i 0).val k * at2 W k (i 1).val)]
  congr 1
  have e : ∀ r : ℕ, (0 + ∑ s ∈ range 8, ∑ k : Fin 512, at2 x (i 0).val (512 * s + k.val) * at2 A' (512 * s + k.val) r)
      = ∑ k : Fin 4096, at2 x (i 0).val k.val * at2 A' k.val r := fun r => by
    rw [zero_add, SumBlocks.sum_blocks_fin 8 512 4096 rfl (fun k => at2 x (i 0).val k * at2 A' k r)]
  simp only [e]
  rw [SumBlocks.sum_pad_fin 16 112 128 rfl
    (fun r => (∑ k : Fin 4096, at2 x (i 0).val k.val * at2 A' k.val r) * at2 B' r (i 1).val)
    (fun r hr => by rw [hB r, if_neg (by omega), mul_zero])]
  refine sum_congr rfl fun r _ => ?_
  rw [hB r.val, if_pos r.isLt]
  congr 1
  exact sum_congr rfl fun k _ => by rw [hA k.val r.val r.isLt]

end Cert.Lora

end
-- ==== Proof.Blocks.lean ====
/-
  What the kernel's windows show it at a grid point, read off the arrays the region finds.

  The 256 points are ordered `t = (i·4 + j)·8 + k` with `i < 8` the row tile, `j < 4` the column tile and
  `k < 8` the contraction block, so `i = t / 32`, `j = (t / 8) % 4`, `k = t % 8`. At point `t`
    * the `x` block is rows `1024·i …`, columns `512·k …` of `x`;
    * the `W` block is rows `512·k …`, columns `1024·j …` of `W`;
    * the `A'` block is rows `512·k …`, all 128 columns of the padded `A`;
    * the `B'` block is all 128 rows, columns `1024·j …` of the padded `B`.
  The padded arrays are host values: `A'` is `A` with 112 columns of the converted integer zero appended, `B'`
  is `B` with 112 such rows appended; the converted integer zero is the real `0`.
-/
import proofs.«145106_j43516608643827_1_alg».proof.Proof.Gen.KernelIdeal.Frame
import proofs.«145106_j43516608643827_1_alg».proof.Proof.Spec
import Idealize.ShloMosaic.Lib.KernelVsHost
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-- The arrays as the region finds them, at their literal types. -/
abbrev xarr (c : Dev nD) : Vec Ideal S8192x4096 .f32 := V m c main_arg0
abbrev warr (c : Dev nD) : Vec Ideal S4096x4096 .f32 := V m c main_arg1
abbrev aarr (c : Dev nD) : Vec Ideal S4096x128 .f32 := V m c main_v0
abbrev barr (c : Dev nD) : Vec Ideal S128x4096 .f32 := V m c main_v1

/-- The four input blocks at a point, at their literal types. -/
abbrev xblk (c : Dev nD) (t : Fin cfg0.N) : Vec Ideal S1024x512 .f32 := iblk m c 0 t
abbrev wblk (c : Dev nD) (t : Fin cfg0.N) : Vec Ideal S512x1024 .f32 := iblk m c 1 t
abbrev ablk (c : Dev nD) (t : Fin cfg0.N) : Vec Ideal S512x128 .f32 := iblk m c 2 t
abbrev bblk (c : Dev nD) (t : Fin cfg0.N) : Vec Ideal S128x1024 .f32 := iblk m c 3 t

theorem xblk_apply (c : Dev nD) (t : Fin cfg0.N) (p : Fin 1024) (k : Fin 512) :
    xblk m c t (ix2 p k) = at2 (xarr m c) (1024 * (t.val / 32) + p.val) (512 * (t.val % 8) + k.val) := by
  have hi : win0_0.index t 0 = t.val / 32 ∧ win0_0.index t 1 = t.val % 8 :=
    (by decide +kernel : ∀ t : Fin grid0.N, win0_0.index t 0 = t.val / 32 ∧ win0_0.index t 1 = t.val % 8) t
  unfold xblk iblk
  rw [View.read_apply]
  refine (at2_of (xarr m c) _ _ _ ?_ ?_).symm
  · show win0_0.index t 0 * 1024 + 1 * p.val = _
    rw [hi.1]; omega
  · show win0_0.index t 1 * 512 + 1 * k.val = _
    rw [hi.2]; omega

theorem wblk_apply (c : Dev nD) (t : Fin cfg0.N) (k : Fin 512) (q : Fin 1024) :
    wblk m c t (ix2 k q) = at2 (warr m c) (512 * (t.val % 8) + k.val) (1024 * (t.val / 8 % 4) + q.val) := by
  have hi : win0_1.index t 0 = t.val % 8 ∧ win0_1.index t 1 = t.val / 8 % 4 :=
    (by decide +kernel : ∀ t : Fin grid0.N, win0_1.index t 0 = t.val % 8 ∧ win0_1.index t 1 = t.val / 8 % 4) t
  unfold wblk iblk
  rw [View.read_apply]
  refine (at2_of (warr m c) _ _ _ ?_ ?_).symm
  · show win0_1.index t 0 * 512 + 1 * k.val = _
    rw [hi.1]; omega
  · show win0_1.index t 1 * 1024 + 1 * q.val = _
    rw [hi.2]; omega

theorem ablk_apply (c : Dev nD) (t : Fin cfg0.N) (k : Fin 512) (r : Fin 128) :
    ablk m c t (ix2 k r) = at2 (aarr m c) (512 * (t.val % 8) + k.val) r.val := by
  have hi : win0_2.index t 0 = t.val % 8 ∧ win0_2.index t 1 = 0 :=
    (by decide +kernel : ∀ t : Fin grid0.N, win0_2.index t 0 = t.val % 8 ∧ win0_2.index t 1 = 0) t
  unfold ablk iblk
  rw [View.read_apply]
  refine (at2_of (aarr m c) _ _ _ ?_ ?_).symm
  · show win0_2.index t 0 * 512 + 1 * k.val = _
    rw [hi.1]; omega
  · show win0_2.index t 1 * 128 + 1 * r.val = _
    rw [hi.2]; omega

theorem bblk_apply (c : Dev nD) (t : Fin cfg0.N) (r : Fin 128) (q : Fin 1024) :
    bblk m c t (ix2 r q) = at2 (barr m c) r.val (1024 * (t.val / 8 % 4) + q.val) := by
  have hi : win0_3.index t 0 = 0 ∧ win0_3.index t 1 = t.val / 8 % 4 :=
    (by decide +kernel : ∀ t : Fin grid0.N, win0_3.index t 0 = 0 ∧ win0_3.index t 1 = t.val / 8 % 4) t
  unfold bblk iblk
  rw [View.read_apply]
  refine (at2_of (barr m c) _ _ _ ?_ ?_).symm
  · show win0_3.index t 0 * 128 + 1 * r.val = _
    rw [hi.1]; omega
  · show win0_3.index t 1 * 1024 + 1 * q.val = _
    rw [hi.2]; omega

/-! ## The two padded arrays -/

/-- The padding value: the integer zero converted to a float is the real zero. -/
theorem padval (i : S_.Idx) : (sitofp .f32 (constantI S_ 32 0#32) : FVec Ideal S_ .f32) i = 0 := by
  show ((((0#32 : BitVec 32).toInt : ℤ) : ℝ) : EReal) = 0
  simp

/-- `A'`: the host pads `A` on the right to 128 columns. -/
theorem aarr_eq (c : Dev nD) :
    aarr m c = pad S4096x128 ![0, 0] ![0, 112] ![0, 0] (m ((c : Thread nD τ).loc main_arg3) : Vec Ideal S4096x16 .f32)
      (sitofp .f32 (constantI S_ 32 0#32) : FVec Ideal S_ .f32) Gen.pads_S4096x16_S4096x128_000_01120 Gen.h_S_ := by
  show V m c main_v0 = _
  dsimp only [V]
  simp only [hostOps0, hostOps0_1, hostOps0_2, hostOps0_3, List.flatten_cons, List.flatten_nil, List.append_nil,
    List.cons_append, List.nil_append]
  after_results
  rfl

/-- `B'`: the host pads `B` below to 128 rows. -/
theorem barr_eq (c : Dev nD) :
    barr m c = pad S128x4096 ![0, 0] ![112, 0] ![0, 0] (m ((c : Thread nD τ).loc main_arg4) : Vec Ideal S16x4096 .f32)
      (sitofp .f32 (constantI S_ 32 0#32) : FVec Ideal S_ .f32) Gen.pads_S16x4096_S128x4096_01120_000 Gen.h_S_ := by
  show V m c main_v1 = _
  dsimp only [V]
  simp only [hostOps0, hostOps0_1, hostOps0_2, hostOps0_3, List.flatten_cons, List.flatten_nil, List.append_nil,
    List.cons_append, List.nil_append]
  after_results
  rfl

/-- Below column 16, `A'` is `A`. -/
theorem at2_aarr (c : Dev nD) (k r : ℕ) (hr : r < 16) :
    at2 (aarr m c) k r = at2 (m ((c : Thread nD τ).loc main_arg3) : Vec Ideal S4096x16 .f32) k r := by
  by_cases hk : k < 4096
  · rw [show at2 (aarr m c) k r = aarr m c (ix2 ⟨k, hk⟩ ⟨r, by omega⟩) from at2_ix2 (aarr m c) ⟨k, hk⟩ ⟨r, by omega⟩,
      show at2 (m ((c : Thread nD τ).loc main_arg3) : Vec Ideal S4096x16 .f32) k r = _ from
        at2_ix2 (m ((c : Thread nD τ).loc main_arg3) : Vec Ideal S4096x16 .f32) ⟨k, hk⟩ ⟨r, hr⟩,
      aarr_eq]
    refine pad_apply_of_inside _ _ _ _ _ _ _ _ (ix2 ⟨k, hk⟩ ⟨r, hr⟩) fun a => ?_
    match a with
    | ⟨0, _⟩ => show k = 0 + k * (0 + 1); omega
    | ⟨1, _⟩ => show r = 0 + r * (0 + 1); omega
  · unfold at2
    rw [dif_neg (fun h => hk h.1), dif_neg (fun h => hk h.1)]

/-- `B'` is `B` on its first 16 rows and zero below. -/
theorem at2_barr (c : Dev nD) (r q : ℕ) :
    at2 (barr m c) r q
      = if r < 16 then at2 (m ((c : Thread nD τ).loc main_arg4) : Vec Ideal S16x4096 .f32) r q else 0 := by
  by_cases hq : q < 4096
  · by_cases hr : r < 16
    · rw [if_pos hr,
        show at2 (barr m c) r q = barr m c (ix2 ⟨r, by omega⟩ ⟨q, hq⟩) from at2_ix2 (barr m c) ⟨r, by omega⟩ ⟨q, hq⟩,
        show at2 (m ((c : Thread nD τ).loc main_arg4) : Vec Ideal S16x4096 .f32) r q = _ from
          at2_ix2 (m ((c : Thread nD τ).loc main_arg4) : Vec Ideal S16x4096 .f32) ⟨r, hr⟩ ⟨q, hq⟩,
        barr_eq]
      refine pad_apply_of_inside _ _ _ _ _ _ _ _ (ix2 ⟨r, hr⟩ ⟨q, hq⟩) fun a => ?_
      match a with
      | ⟨0, _⟩ => show r = 0 + r * (0 + 1); omega
      | ⟨1, _⟩ => show q = 0 + q * (0 + 1); omega
    · rw [if_neg hr]
      by_cases hr' : r < 128
      · rw [show at2 (barr m c) r q = barr m c (ix2 ⟨r, hr'⟩ ⟨q, hq⟩) from at2_ix2 (barr m c) ⟨r, hr'⟩ ⟨q, hq⟩, barr_eq,
          pad_apply_of_not_inside _ _ _ _ _ _ _ _ (⟨0, by decide⟩ : Fin S16x4096.rank) (fun h => hr (by
            have h3 : (r - 0) / (0 + 1) < 16 := h.2.2
            simpa using h3))]
        exact padval _
      · unfold at2
        rw [dif_neg (fun h => hr' h.1)]
  · unfold at2
    rw [dif_neg (fun h => hq h.2)]
    split
    · rw [dif_neg (fun h => hq h.2)]
    · rfl

end Cert.KernelIdeal.Blocks

end
-- ==== Proof.Fold.lean ====
/-
  What the two accumulators hold after a grid point, and what the last point of a run writes out.

  A run is the 8 consecutive points `8·a, …, 8·a + 7` that share a row tile and a column tile. Its first
  point resets both accumulators to zero and every point adds its block product, so after point `t` the
  `[1024, 1024]` accumulator holds, at `(p, q)`,
      0 + ∑_{s ≤ t % 8} ∑ₖ x[1024·i + p, 512·s + k] · W[512·s + k, 1024·j + q]
  and the `[1024, 128]` one the same with `A'` in place of `W`. The run's last point stores
  `acc + lora · B'`-block, which is entry `(1024·i + p, 1024·j + q)` of the blocked form of `x·W + (x·A')·B'`.
-/
import proofs.«145106_j43516608643827_1_alg».proof.Proof.Gen.KernelIdeal.Value
import proofs.«145106_j43516608643827_1_alg».proof.Proof.Pieces
import proofs.«145106_j43516608643827_1_alg».proof.Proof.Payloads
import proofs.«145106_j43516608643827_1_alg».proof.Proof.Blocks

noncomputable section

namespace Cert.KernelIdeal.Fold

open Cert.KernelIdeal Cert.KernelIdeal.Gen Cert.KernelIdeal.Value Cert.KernelIdeal.Blocks
open Idealize.ShloMosaic Idealize.ShloMosaic.TcCoe Idealize.SL.Sem Idealize.ShloMosaic.ValueIdx Cert.Lora Finset

variable (m : (ℓ : Loc nD τ sig) → Buf (Elt Ideal) ℓ)

/-- Point `n`'s addend to the `[1024, 1024]` accumulator: its `x` block times its `W` block. -/
def Macc (c : Dev nD) (n : ℕ) (i : S1024x1024.Idx) : EReal :=
  ∑ k : Fin 512, at2 (xarr m c) (1024 * (n / 32) + (i 0).val) (512 * (n % 8) + k.val)
    * at2 (warr m c) (512 * (n % 8) + k.val) (1024 * (n / 8 % 4) + (i 1).val)

/-- Point `n`'s addend to the `[1024, 128]` accumulator: its `x` block times its `A'` block. -/
def Mlora (c : Dev nD) (n : ℕ) (i : S1024x128.Idx) : EReal :=
  ∑ k : Fin 512, at2 (xarr m c) (1024 * (n / 32) + (i 0).val) (512 * (n % 8) + k.val)
    * at2 (aarr m c) (512 * (n % 8) + k.val) (i 1).val

/-- The accumulate step over a point's blocks: what was there plus the point's addend. -/
theorem pay4_blocks (c : Dev nD) (t : Fin cfg0.N) (acc : Vec Ideal S1024x1024 .f32) (i : S1024x1024.Idx) :
    k0_pay4 (F := Ideal) (xblk m c t) (wblk m c t) acc i = acc i + Macc m c t.val i := by
  obtain ⟨p, q, rfl⟩ : ∃ (p : Fin 1024) (q : Fin 1024), i = ix2 p q := ⟨i 0, i 1, eq_ix2 i⟩
  refine (Payloads.pay4_apply (xblk m c t) (wblk m c t) acc p q).trans ?_
  congr 1
  exact sum_congr rfl fun k _ => by rw [xblk_apply, wblk_apply]

theorem pay5_blocks (c : Dev nD) (t : Fin cfg0.N) (lo : Vec Ideal S1024x128 .f32) (i : S1024x128.Idx) :
    k0_pay5 (F := Ideal) (xblk m c t) (ablk m c t) lo i = lo i + Mlora m c t.val i := by
  obtain ⟨p, r, rfl⟩ : ∃ (p : Fin 1024) (r : Fin 128), i = ix2 p r := ⟨i 0, i 1, eq_ix2 i⟩
  refine (Payloads.pay5_apply (xblk m c t) (ablk m c t) lo p r).trans ?_
  congr 1
  exact sum_congr rfl fun k _ => by rw [xblk_apply, ablk_apply]

/-! ## One point's effect on each accumulator -/

theorem sc0_reset (c : Dev nD) (n : ℕ) (hb : n < cfg0.N) (acc : Vec Ideal S1024x1024 .f32) (h0 : n % 8 = 0) :
    scAt0_0 m c n hb acc = k0_pay4 (F := Ideal) (xblk m c ⟨n, hb⟩) (wblk m c ⟨n, hb⟩) (k0_pay1 (F := Ideal)) := by
  unfold scAt0_0
  rw [dif_pos h0, dif_neg (by omega)]
  exact Pieces.acc_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) _ _ (xblk m c (⟨n, hb⟩ : Fin cfg0.N)) (wblk m c (⟨n, hb⟩ : Fin cfg0.N)) (ablk m c (⟨n, hb⟩ : Fin cfg0.N)) (bblk m c (⟨n, hb⟩ : Fin cfg0.N))

theorem sc0_step (c : Dev nD) (n : ℕ) (hb : n < cfg0.N) (acc : Vec Ideal S1024x1024 .f32) (h0 : ¬n % 8 = 0) :
    scAt0_0 m c n hb acc = k0_pay4 (F := Ideal) (xblk m c ⟨n, hb⟩) (wblk m c ⟨n, hb⟩) acc := by
  unfold scAt0_0
  rw [dif_neg h0]
  split
  · exact Pieces.acc_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) _ _ (xblk m c (⟨n, hb⟩ : Fin cfg0.N)) (wblk m c (⟨n, hb⟩ : Fin cfg0.N)) (ablk m c (⟨n, hb⟩ : Fin cfg0.N)) (bblk m c (⟨n, hb⟩ : Fin cfg0.N)) acc _
  · exact Pieces.acc_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) _ _ (xblk m c (⟨n, hb⟩ : Fin cfg0.N)) (wblk m c (⟨n, hb⟩ : Fin cfg0.N)) (ablk m c (⟨n, hb⟩ : Fin cfg0.N)) (bblk m c (⟨n, hb⟩ : Fin cfg0.N)) acc _

theorem sc1_reset (c : Dev nD) (n : ℕ) (hb : n < cfg0.N) (lo : Vec Ideal S1024x128 .f32) (h0 : n % 8 = 0) :
    scAt0_1 m c n hb lo = k0_pay5 (F := Ideal) (xblk m c ⟨n, hb⟩) (ablk m c ⟨n, hb⟩) (k0_pay2 (F := Ideal)) := by
  unfold scAt0_1
  rw [dif_pos h0, dif_neg (by omega)]
  exact Pieces.lora_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) _ _ (xblk m c (⟨n, hb⟩ : Fin cfg0.N)) (wblk m c (⟨n, hb⟩ : Fin cfg0.N)) (ablk m c (⟨n, hb⟩ : Fin cfg0.N)) (bblk m c (⟨n, hb⟩ : Fin cfg0.N))

theorem sc1_step (c : Dev nD) (n : ℕ) (hb : n < cfg0.N) (lo : Vec Ideal S1024x128 .f32) (h0 : ¬n % 8 = 0) :
    scAt0_1 m c n hb lo = k0_pay5 (F := Ideal) (xblk m c ⟨n, hb⟩) (ablk m c ⟨n, hb⟩) lo := by
  unfold scAt0_1
  rw [dif_neg h0]
  split
  · exact Pieces.lora_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) _ _ (xblk m c (⟨n, hb⟩ : Fin cfg0.N)) (wblk m c (⟨n, hb⟩ : Fin cfg0.N)) (ablk m c (⟨n, hb⟩ : Fin cfg0.N)) (bblk m c (⟨n, hb⟩ : Fin cfg0.N)) _ lo
  · exact Pieces.lora_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) scM0_1 (Memref.isWhole_whole _) _ _ (xblk m c (⟨n, hb⟩ : Fin cfg0.N)) (wblk m c (⟨n, hb⟩ : Fin cfg0.N)) (ablk m c (⟨n, hb⟩ : Fin cfg0.N)) (bblk m c (⟨n, hb⟩ : Fin cfg0.N)) _ lo

/-! ## The accumulators after a point -/

theorem acc_at (c : Dev nD) (t : Fin cfg0.N) (i : S1024x1024.Idx) :
    (outsAt0 m c t.val t.isLt).2.1 i = 0 + ∑ s ∈ range (t.val % 8 + 1), Macc m c (8 * (t.val / 8) + s) i := by
  rw [soutsAt0_0_eq]
  refine Pipeline.accAt_add_apply _ _ (fun _ => (0 : EReal)) (Macc m c) (8 * (t.val / 8)) 7 (fun h j => ?_)
    (fun n h acc j hn hn' => ?_) (t.val % 8) (by omega) _ i
  · show scAt0_0 m c _ h _ j = 0 + Macc m c _ j
    rw [sc0_reset m c _ h _ (by omega), pay4_blocks]
    congr 1
    obtain ⟨p, q, rfl⟩ : ∃ (p : Fin 1024) (q : Fin 1024), j = ix2 p q := ⟨j 0, j 1, eq_ix2 j⟩
    exact Payloads.pay1_apply p q
  · show scAt0_0 m c n h acc j = acc j + Macc m c n j
    rw [sc0_step m c n h acc (by omega), pay4_blocks]

theorem lora_at (c : Dev nD) (t : Fin cfg0.N) (i : S1024x128.Idx) :
    (outsAt0 m c t.val t.isLt).2.2 i = 0 + ∑ s ∈ range (t.val % 8 + 1), Mlora m c (8 * (t.val / 8) + s) i := by
  rw [soutsAt0_1_eq]
  refine Pipeline.accAt_add_apply _ _ (fun _ => (0 : EReal)) (Mlora m c) (8 * (t.val / 8)) 7 (fun h j => ?_)
    (fun n h lo j hn hn' => ?_) (t.val % 8) (by omega) _ i
  · show scAt0_1 m c _ h _ j = 0 + Mlora m c _ j
    rw [sc1_reset m c _ h _ (by omega), pay5_blocks]
    congr 1
    obtain ⟨p, r, rfl⟩ : ∃ (p : Fin 1024) (r : Fin 128), j = ix2 p r := ⟨j 0, j 1, eq_ix2 j⟩
    exact Payloads.pay2_apply p r
  · show scAt0_1 m c n h lo j = lo j + Mlora m c n j
    rw [sc1_step m c n h lo (by omega), pay5_blocks]

/-! ## What a run's last point stores -/

/-- At a run's last point the stored block is the first accumulator plus the second times the `B'` block, both
    accumulators as that point leaves them. -/
theorem out_split (c : Dev nD) (t : Fin cfg0.N) (h7 : t.val % 8 = 7) (p q : Fin 1024) :
    (outsAt0 m c t.val t.isLt).1 (ix2 p q)
      = (outsAt0 m c t.val t.isLt).2.1 (ix2 p q)
        + ∑ r : Fin 128, (outsAt0 m c t.val t.isLt).2.2 (ix2 p r) * bblk m c t (ix2 r q) := by
  have h0 : ¬t.val % 8 = 0 := by omega
  rw [outsAt0_C m c t h0 h7]
  dsimp only
  rw [Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (xblk m c t) (wblk m c t) (ablk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2,
    Pieces.acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (xblk m c t) (wblk m c t) (ablk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2,
    Pieces.lora_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) _ _ (xblk m c t) (wblk m c t) (ablk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2]
  exact Payloads.pay6_apply (bblk m c t) _ _ p q

/-- … which is the blocked form of `x·W + (x·A')·B'` at the entry the point's output block puts `(p, q)` at. -/
theorem out_at (c : Dev nD) (t : Fin cfg0.N) (h7 : t.val % 8 = 7) (p q : Fin 1024) (i : S8192x4096.Idx)
    (hi0 : (i 0).val = 1024 * (t.val / 32) + p.val) (hi1 : (i 1).val = 1024 * (t.val / 8 % 4) + q.val) :
    (outsAt0 m c t.val t.isLt).1 (ix2 p q) = blocked (xarr m c) (warr m c) (aarr m c) (barr m c) i := by
  have e8 : t.val % 8 + 1 = 8 := by omega
  rw [out_split m c t h7 p q, acc_at, e8]
  unfold blocked
  rw [hi0, hi1]
  congr 1
  · congr 1
    refine sum_congr rfl fun s hs => ?_
    have hs' : s < 8 := mem_range.mp hs
    unfold Macc
    refine sum_congr rfl fun k _ => ?_
    rw [show (8 * (t.val / 8) + s) / 32 = t.val / 32 by omega, show (8 * (t.val / 8) + s) % 8 = s by omega,
      show (8 * (t.val / 8) + s) / 8 % 4 = t.val / 8 % 4 by omega]
  · refine sum_congr rfl fun r _ => ?_
    rw [lora_at, e8, bblk_apply]
    congr 1
    congr 1
    refine sum_congr rfl fun s hs => ?_
    have hs' : s < 8 := mem_range.mp hs
    unfold Mlora
    refine sum_congr rfl fun k _ => ?_
    rw [show (8 * (t.val / 8) + s) / 32 = t.val / 32 by omega, show (8 * (t.val / 8) + s) % 8 = s by omega]

end Cert.KernelIdeal.Fold

end
-- ==== Proof.Final.lean ====
/-
  The result array after the run.

  Only the last point of each run of 8 writes its output block back, and those 32 blocks (8 row tiles by 4
  column tiles of `[1024, 1024]`) tile the `[8192, 4096]` result: the block written at point `t` sits at
  rows `1024·(t / 32) …` and columns `1024·(t / 8 % 4) …`, and entry `(i₀, i₁)` lies in the block of the
  point `((i₀ / 1024)·4 + i₁ / 1024)·8 + 7`. Each written block is the matching block of the blocked form of
  `x·W + (x·A')·B'`, so the whole array is that function; and with `A'`, `B'` the zero-padded `A`, `B` it is
  `x·W + (x·A)·B` of the four arguments.
-/
import proofs.«145106_j43516608643827_1_alg».proof.Proof.Fold

noncomputable section

namespace Cert.KernelIdeal.Final

open Cert.KernelIdeal Cert.KernelIdeal.Gen Cert.KernelIdeal.Value Cert.KernelIdeal.Blocks
open Idealize.ShloMosaic Idealize.ShloMosaic.TcCoe Idealize.SL.Sem Idealize.ShloMosaic.ValueIdx Cert.Lora
open Idealize.ShloMosaic.Pipeline (Dat)

variable (m : (ℓ : Loc nD τ sig) → Buf (Elt Ideal) ℓ) (ρ : Dev nD → PrngReg)

/-- The result array: the blocked form over the arrays the region finds. -/
abbrev result (c : Dev nD) : Buf (Elt Ideal) ((c : Thread nD τ).loc main_v2) :=
  blocked (xarr m c) (warr m c) (aarr m c) (barr m c)

/-- Where the output block of point `t` sits. -/
theorem out_index (t : Fin cfg0.N) : win0_4.index t 0 = t.val / 32 ∧ win0_4.index t 1 = t.val / 8 % 4 :=
  (by decide +kernel : ∀ t : Fin grid0.N, win0_4.index t 0 = t.val / 32 ∧ win0_4.index t 1 = t.val / 8 % 4) t

/-- What a run's last point writes back is its block of `result`. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  obtain ⟨e0, e1⟩ := out_index t
  rw [flushed4]
  funext j
  show (outsAt0 m c t.val t.isLt).1 j = result m c (((cfg0.win 4).blk t).view.emb j)
  obtain ⟨p, q, rfl⟩ : ∃ (p : Fin 1024) (q : Fin 1024), j = ix2 p q := ⟨j 0, j 1, eq_ix2 j⟩
  refine Fold.out_at m c t h7 p q _ ?_ ?_
  · show win0_4.index t 0 * 1024 + 1 * p.val = _
    rw [e0]; omega
  · show win0_4.index t 1 * 1024 + 1 * q.val = _
    rw [e1]; omega

/-- An entry is in point `t`'s output block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2).slice (win0_4.rect t)).set ↔ _
  rw [View.set_slice_whole, Rect.mem_set_unit]
  exact Iff.rfl

/-- Every entry is in the output block of some run's last point. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  refine ⟨⟨((i 0).val / 1024 * 4 + (i 1).val / 1024) * 8 + 7, by rw [hN]; omega⟩,
    (flush0_4 _).mpr (by show (((i 0).val / 1024 * 4 + (i 1).val / 1024) * 8 + 7) % 8 = 7; omega), ?_⟩
  rw [mem_blk]
  obtain ⟨e0, e1⟩ := out_index ⟨((i 0).val / 1024 * 4 + (i 1).val / 1024) * 8 + 7, by rw [hN]; omega⟩
  intro a
  match a with
  | ⟨0, _⟩ =>
    show win0_4.index _ 0 * 1024 ≤ (i 0).val ∧ (i 0).val < win0_4.index _ 0 * 1024 + 1024
    rw [e0]; dsimp only; omega
  | ⟨1, _⟩ =>
    show win0_4.index _ 1 * 1024 ≤ (i 1).val ∧ (i 1).val < win0_4.index _ 1 * 1024 + 1024
    rw [e1]; dsimp only; omega

/-- So the result array ends holding `result`. -/
theorem final (c : Dev nD) : (dats m 0 c).arrAt 4 cfg0.N = result m c :=
  (dats m 0 c).arrAt_eq_of_cover 4 (result m c) (flushed_eq m c) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-- As a function of the four arguments it depends on, the result is `x·W + (x·A)·B`. -/
theorem result_eq (c : Dev nD) :
    result m c = loraLinear (m ((c : Thread nD τ).loc main_arg0)) (m ((c : Thread nD τ).loc main_arg1))
      (m ((c : Thread nD τ).loc main_arg3)) (m ((c : Thread nD τ).loc main_arg4)) := by
  have ex : xarr m c = m ((c : Thread nD τ).loc main_arg0) := V_main_arg0 m c
  have ew : warr m c = m ((c : Thread nD τ).loc main_arg1) := V_main_arg1 m c
  show blocked (xarr m c) (warr m c) (aarr m c) (barr m c) = _
  rw [ex, ew]
  exact blocked_eq _ _ _ _ _ _ (fun k r hr => at2_aarr m c k r hr) (fun r q => at2_barr m c r q)

end Cert.KernelIdeal.Final

end
-- ==== Proof.Reference.lean ====
/-
  The reference's value is the specification.

  The reference computes `x · W + (x · A) · B` in four stages: the base product, the down projection, the up
  projection of the down projection, and their sum. Read at one element `i` over the extended reals, each product is
  the sum over its contracted coordinate of the left operand at (row of `i`, k) times the right operand at
  (k, column of `i`), and the sum of two arrays is the sum of their elements. Every factor is an array read at an
  index whose two coordinates are known, which is the specification's reading of an array by natural coordinates.
  So the two sides agree summand by summand; no regrouping is needed.
-/
import proofs.«145106_j43516608643827_1_alg».proof.Proof.Gen.ReferenceIdeal.Read
import proofs.«145106_j43516608643827_1_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read

/-- The reference's result, stage by stage, is `x · W + (x · A) · B` entry by entry. -/
theorem val_eq (x0 : (⟨S8192x4096, .f32⟩ : BufTy).Contents (Elt Ideal)) (x1 : (⟨S4096x4096, .f32⟩ : BufTy).Contents (Elt Ideal)) (x3 : (⟨S4096x16, .f32⟩ : BufTy).Contents (Elt Ideal)) (x4 : (⟨S16x4096, .f32⟩ : BufTy).Contents (Elt Ideal)) :
    Cert.ReferenceIdeal.Read.val_main_v3 (F := Ideal) x0 x1 x3 x4 = Cert.Lora.loraLinear x0 x1 x3 x4 := by
  funext i
  unfold Cert.Lora.loraLinear
  rw [Read.val_main_v3_apply, Read.val_main_v0_apply, Read.val_main_v2_apply, Ideal.addf_def]
  -- the base product, summand by summand; then the low-rank term, summand by summand
  refine congrArg₂ (· + ·) (Finset.sum_congr rfl fun k _ => ?_) (Finset.sum_congr rfl fun r _ => ?_)
  · exact congrArg₂ (· * ·)
      (Cert.Lora.at2_of x0 (lidx_main_v0 i k) (i 0).val k.val rfl rfl).symm
      (Cert.Lora.at2_of x1 (ridx_main_v0 i k) k.val (i 1).val rfl rfl).symm
  · refine congrArg₂ (· * ·) ?_ (Cert.Lora.at2_of x4 (ridx_main_v2 i r) r.val (i 1).val rfl rfl).symm
    -- the down projection at (row of i, r)
    rw [Read.val_main_v1_apply]
    refine Finset.sum_congr rfl fun k _ => ?_
    exact congrArg₂ (· * ·)
      (Cert.Lora.at2_of x0 (lidx_main_v1 (lidx_main_v2 i r) k) (i 0).val k.val rfl rfl).symm
      (Cert.Lora.at2_of x3 (ridx_main_v1 (lidx_main_v2 i r) k) k.val r.val rfl rfl).symm

end Cert.ReferenceIdeal.RefValue

end
-- ==== Proof.lean ====
/- The proof of `Cert.Claim`: a linear layer with a low-rank update, `x·W + (x·A)·B` with `x : [8192, 4096]`,
   `W : [4096, 4096]`, `A : [4096, 16]`, `B : [16, 4096]`, the bias returned as it came.

   The kernel tiles the result in `[1024, 1024]` blocks and, for each, walks the contraction axis in 8 blocks of
   512: a `[1024, 1024]` accumulator gathers `x·W`, a `[1024, 128]` one gathers `x·A'` where `A'` is `A`
   padded with zero columns to rank 128, and the last step adds the second accumulator times the block of
   `B'` (`B` padded with zero rows). Over the extended reals a change of float format is the identity, so
   what differs from the reference is only the grouping of each sum over `k`, and the 112 extra rank terms,
   each of which is a number times zero:
     * Proof/SumBlocks.lean — regrouping a sum into blocks; dropping vanishing terms;
     * Proof/Spec.lean — the two forms of the value and their equality (`blocked_eq`);
     * Proof/Pieces.lean, Proof/Payloads.lean — what one grid point stores, as sums at an index;
     * Proof/Blocks.lean — the blocks a point sees, and the padded arrays, read off the arguments;
     * Proof/Fold.lean — the accumulators after each point; the block the last point of a run stores;
     * Proof/Final.lean — the stored blocks tile the result, so it is the blocked form, hence the plain one;
     * Proof/Reference.lean — the reference's four operations are the plain form.
   No step needs the inputs to be finite: only `+` is regrouped, and `u · 0 = 0` for every extended real `u`. -/
import proofs.«145106_j43516608643827_1_alg».proof.Defs
import proofs.«145106_j43516608643827_1_alg».proof.Proof.Gen.Kernel
import proofs.«145106_j43516608643827_1_alg».proof.Proof.Gen.Kernel.Frame
import proofs.«145106_j43516608643827_1_alg».proof.Proof.Gen.KernelIdeal
import proofs.«145106_j43516608643827_1_alg».proof.Proof.Gen.KernelIdeal.Frame
import proofs.«145106_j43516608643827_1_alg».proof.Proof.Gen.KernelIdeal.Value
import proofs.«145106_j43516608643827_1_alg».proof.Proof.Gen.ReferenceIdeal
import proofs.«145106_j43516608643827_1_alg».proof.Proof.Gen.ReferenceIdeal.Run
import proofs.«145106_j43516608643827_1_alg».proof.Proof.Gen.ReferenceIdeal.Read
import proofs.«145106_j43516608643827_1_alg».proof.Proof.Gen.Pre_finite_inputs
import proofs.«145106_j43516608643827_1_alg».proof.Proof.Final
import proofs.«145106_j43516608643827_1_alg».proof.Proof.Reference
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is four host operations; its run leaves the arguments as they were. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read over the extended reals: nothing was rewritten. -/
theorem preserves : Cert.preserves_Kernel_KernelIdeal := trivial

/-- Both programs end with `x·W + (x·A)·B` of the arguments in the first result and the bias in the second. -/
theorem algebraic : Cert.algebraic_KernelIdeal_ReferenceIdeal := by
  intro m ρ m' ρ' _ hagree
  refine ⟨fun c => Cert.KernelIdeal.Final.result m c,
    fun c => m ((c.tc : Thread Cert.KernelIdeal.nD Cert.KernelIdeal.τ).loc Cert.KernelIdeal.main_arg2), ?_, ?_⟩
  · exact (θ_run Cert.KernelIdeal.defs _ _).mono
      (fun _ h c => ⟨(h c).1, (h c).2.2.2.1, (h c).2.1, (h c).2.2.1, (h c).2.2.2.1, (h c).2.2.2.2.1, (h c).2.2.2.2.2⟩)
      (Cert.KernelIdeal.Final.run m ρ)
  · refine (θ_run Cert.ReferenceIdeal.defs _ _).mono
      (fun _ h c => ⟨(h c).1.trans ?_, (h c).2.1.trans ?_, (h c).2.2⟩)
      (Cert.ReferenceIdeal.Value.run (F := Ideal) m' ρ')
    · show _ = Cert.KernelIdeal.Final.result m c
      rw [Cert.ReferenceIdeal.Read.val_main_v3_eq, Cert.ReferenceIdeal.RefValue.val_eq,
        Cert.KernelIdeal.Final.result_eq, (hagree c).1, (hagree c).2.1, (hagree c).2.2.2.1, (hagree c).2.2.2.2]
    · exact (hagree c).2.2.1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
